-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S4096x31 : Shape := ⟨2, ![4096, 31]⟩
abbrev S256x16384 : Shape := ⟨2, ![256, 16384]⟩
abbrev S256x31 : Shape := ⟨2, ![256, 31]⟩
abbrev S256 : Shape := ⟨1, ![256]⟩
abbrev S256x1 : Shape := ⟨2, ![256, 1]⟩
abbrev S256x8192 : Shape := ⟨2, ![256, 8192]⟩
abbrev S256x4096 : Shape := ⟨2, ![256, 4096]⟩
abbrev S256x2048 : Shape := ⟨2, ![256, 2048]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x16384, .f32⟩
  | .hbm, ⟨1, _⟩ => ⟨S4096x31, .f32⟩
  | .local _ .vmem, ⟨0, _⟩ => ⟨S256x16384, .f32⟩
  | .local _ .vmem, ⟨1, _⟩ => ⟨S256x16384, .f32⟩
  | .local _ .vmem, ⟨2, _⟩ => ⟨S256x31, .f32⟩
  | .local _ .vmem, ⟨3, _⟩ => ⟨S256x31, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x31 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x16384_S256x16384_0_0 : ∀ a, (![0, 0] : Fin 2 → Nat) a + S256x16384.size a ≤ S256x16384.size a
  h_S256x16384 : 0 < S256x16384.numel
  reduces_S256x16384_S256 : S256x16384.Reduces [1] S256
  shapeCasts_S256_S256x1 : S256.ShapeCasts S256x1
  slices_S256x16384_o0_0_S256x8192 : S256x16384.Slices ![0, 0] S256x8192
  reduces_S256x8192_S256 : S256x8192.Reduces [1] S256
  slices_S256x16384_o0_8192_S256x8192 : S256x16384.Slices ![0, 8192] S256x8192
  slices_S256x16384_o0_0_S256x4096 : S256x16384.Slices ![0, 0] S256x4096
  reduces_S256x4096_S256 : S256x4096.Reduces [1] S256
  slices_S256x16384_o0_4096_S256x4096 : S256x16384.Slices ![0, 4096] S256x4096
  slices_S256x16384_o0_8192_S256x4096 : S256x16384.Slices ![0, 8192] S256x4096
  slices_S256x16384_o0_12288_S256x4096 : S256x16384.Slices ![0, 12288] S256x4096
  slices_S256x16384_o0_0_S256x2048 : S256x16384.Slices ![0, 0] S256x2048
  reduces_S256x2048_S256 : S256x2048.Reduces [1] S256
  slices_S256x16384_o0_2048_S256x2048 : S256x16384.Slices ![0, 2048] S256x2048
  slices_S256x16384_o0_4096_S256x2048 : S256x16384.Slices ![0, 4096] S256x2048
  slices_S256x16384_o0_6144_S256x2048 : S256x16384.Slices ![0, 6144] S256x2048
  slices_S256x16384_o0_8192_S256x2048 : S256x16384.Slices ![0, 8192] S256x2048
  slices_S256x16384_o0_10240_S256x2048 : S256x16384.Slices ![0, 10240] S256x2048
  slices_S256x16384_o0_12288_S256x2048 : S256x16384.Slices ![0, 12288] S256x2048
  slices_S256x16384_o0_14336_S256x2048 : S256x16384.Slices ![0, 14336] S256x2048
  slices_S256x16384_o0_0_S256x1024 : S256x16384.Slices ![0, 0] S256x1024
  reduces_S256x1024_S256 : S256x1024.Reduces [1] S256
  slices_S256x16384_o0_1024_S256x1024 : S256x16384.Slices ![0, 1024] S256x1024
  slices_S256x16384_o0_2048_S256x1024 : S256x16384.Slices ![0, 2048] S256x1024
  slices_S256x16384_o0_3072_S256x1024 : S256x16384.Slices ![0, 3072] S256x1024
  slices_S256x16384_o0_4096_S256x1024 : S256x16384.Slices ![0, 4096] S256x1024
  slices_S256x16384_o0_5120_S256x1024 : S256x16384.Slices ![0, 5120] S256x1024
  slices_S256x16384_o0_6144_S256x1024 : S256x16384.Slices ![0, 6144] S256x1024
  slices_S256x16384_o0_7168_S256x1024 : S256x16384.Slices ![0, 7168] S256x1024
  slices_S256x16384_o0_8192_S256x1024 : S256x16384.Slices ![0, 8192] S256x1024
  slices_S256x16384_o0_9216_S256x1024 : S256x16384.Slices ![0, 9216] S256x1024
  slices_S256x16384_o0_10240_S256x1024 : S256x16384.Slices ![0, 10240] S256x1024
  slices_S256x16384_o0_11264_S256x1024 : S256x16384.Slices ![0, 11264] S256x1024
  slices_S256x16384_o0_12288_S256x1024 : S256x16384.Slices ![0, 12288] S256x1024
  slices_S256x16384_o0_13312_S256x1024 : S256x16384.Slices ![0, 13312] S256x1024
  slices_S256x16384_o0_14336_S256x1024 : S256x16384.Slices ![0, 14336] S256x1024
  slices_S256x16384_o0_15360_S256x1024 : S256x16384.Slices ![0, 15360] S256x1024
  concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x31_d1 : Shape.Concatenates [S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1, S256x1] S256x31 1
  inb_S256x31_S256x31_0_0 : ∀ a, (![0, 0] : Fin 2 → Nat) a + S256x31.size a ≤ S256x31.size a
  h_S256x31 : 0 < S256x31.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S4096x16384.size a
  hwx0_0 : ∀ i : grid0.Coords, EltTy.bits .f32 = 32 ∨ (Rect.block (s := S4096x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x31.size a ≤ S4096x31.size a
  hwx0_1 : ∀ i : grid0.Coords, EltTy.bits .f32 = 32 ∨ (Rect.block (s := S4096x31) S256x31.size (cc0_transform_1 i) (hinb0_1 i)).WholeWords (EltTy.packing .f32)

variable [Facts₀]

abbrev win0_0 : Pipeline.Window sig grid0 :=
  Pipeline.Window.ofSpec (Memref.whole main_arg0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x31.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩
abbrev S4096x1x8192 : Shape := ⟨3, ![4096, 1, 8192]⟩
abbrev S4096x2 : Shape := ⟨2, ![4096, 2]⟩
abbrev S4096x12288 : Shape := ⟨2, ![4096, 12288]⟩
abbrev S4096x3x4096 : Shape := ⟨3, ![4096, 3, 4096]⟩
abbrev S4096x3 : Shape := ⟨2, ![4096, 3]⟩
abbrev S4096x4096 : Shape := ⟨2, ![4096, 4096]⟩
abbrev S4096x4 : Shape := ⟨2, ![4096, 4]⟩
abbrev S4096x14336 : Shape := ⟨2, ![4096, 14336]⟩
abbrev S4096x7x2048 : Shape := ⟨3, ![4096, 7, 2048]⟩
abbrev S4096x7 : Shape := ⟨2, ![4096, 7]⟩
abbrev S4096x2048 : Shape := ⟨2, ![4096, 2048]⟩
abbrev S4096x8 : Shape := ⟨2, ![4096, 8]⟩
abbrev S4096x15360 : Shape := ⟨2, ![4096, 15360]⟩
abbrev S4096x15x1024 : Shape := ⟨3, ![4096, 15, 1024]⟩
abbrev S4096x15 : Shape := ⟨2, ![4096, 15]⟩
abbrev S4096x1024 : Shape := ⟨2, ![4096, 1024]⟩
abbrev S4096x16 : Shape := ⟨2, ![4096, 16]⟩
abbrev S4096x31 : Shape := ⟨2, ![4096, 31]⟩

abbrev nBuf : Space → Nat
  | .hbm => 41
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S_, .f32⟩
  | .hbm, ⟨2, _⟩ => ⟨S4096, .f32⟩
  | .hbm, ⟨3, _⟩ => ⟨S4096x1, .f32⟩
  | .hbm, ⟨4, _⟩ => ⟨S4096x8192, .f32⟩
  | .hbm, ⟨5, _⟩ => ⟨S4096x1x8192, .f32⟩
  | .hbm, ⟨6, _⟩ => ⟨S_, .f32⟩
  | .hbm, ⟨7, _⟩ => ⟨S4096x1, .f32⟩
  | .hbm, ⟨8, _⟩ => ⟨S4096x8192, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S4096x2, .f32⟩
  | .hbm, ⟨13, _⟩ => ⟨S4096x12288, .f32⟩
  | .hbm, ⟨14, _⟩ => ⟨S4096x3x4096, .f32⟩
  | .hbm, ⟨15, _⟩ => ⟨S_, .f32⟩
  | .hbm, ⟨16, _⟩ => ⟨S4096x3, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x4, .f32⟩
  | .hbm, ⟨22, _⟩ => ⟨S4096x14336, .f32⟩
  | .hbm, ⟨23, _⟩ => ⟨S4096x7x2048, .f32⟩
  | .hbm, ⟨24, _⟩ => ⟨S_, .f32⟩
  | .hbm, ⟨25, _⟩ => ⟨S4096x7, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x8, .f32⟩
  | .hbm, ⟨31, _⟩ => ⟨S4096x15360, .f32⟩
  | .hbm, ⟨32, _⟩ => ⟨S4096x15x1024, .f32⟩
  | .hbm, ⟨33, _⟩ => ⟨S_, .f32⟩
  | .hbm, ⟨34, _⟩ => ⟨S4096x15, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x16, .f32⟩
  | .hbm, ⟨40, _⟩ => ⟨S4096x31, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  reducesTo_S4096x16384_S4096_d1 : S4096x16384.ReducesTo [1] S4096
  h_S_ : 0 < S_.numel
  bcast_S4096_S4096x1_0 : S4096.BroadcastsInDim S4096x1 (![0] : Fin 1 → Fin S4096x1.rank)
  slices_S4096x16384_S4096x8192_0_0 : S4096x16384.Slices ![0, 0] S4096x8192
  shapeCasts_S4096x8192_S4096x1x8192 : S4096x8192.ShapeCasts S4096x1x8192
  reducesTo_S4096x1x8192_S4096x1_d2 : S4096x1x8192.ReducesTo [2] S4096x1
  slices_S4096x16384_S4096x8192_0_8192 : S4096x16384.Slices ![0, 8192] S4096x8192
  reducesTo_S4096x8192_S4096_d1 : S4096x8192.ReducesTo [1] S4096
  concatenates_S4096x1_S4096x1_S4096x2_d1 : Shape.Concatenates [S4096x1, S4096x1] S4096x2 1
  slices_S4096x16384_S4096x12288_0_0 : S4096x16384.Slices ![0, 0] S4096x12288
  shapeCasts_S4096x12288_S4096x3x4096 : S4096x12288.ShapeCasts S4096x3x4096
  reducesTo_S4096x3x4096_S4096x3_d2 : S4096x3x4096.ReducesTo [2] S4096x3
  slices_S4096x16384_S4096x4096_0_12288 : S4096x16384.Slices ![0, 12288] S4096x4096
  reducesTo_S4096x4096_S4096_d1 : S4096x4096.ReducesTo [1] S4096
  concatenates_S4096x3_S4096x1_S4096x4_d1 : Shape.Concatenates [S4096x3, S4096x1] S4096x4 1
  slices_S4096x16384_S4096x14336_0_0 : S4096x16384.Slices ![0, 0] S4096x14336
  shapeCasts_S4096x14336_S4096x7x2048 : S4096x14336.ShapeCasts S4096x7x2048
  reducesTo_S4096x7x2048_S4096x7_d2 : S4096x7x2048.ReducesTo [2] S4096x7
  slices_S4096x16384_S4096x2048_0_14336 : S4096x16384.Slices ![0, 14336] S4096x2048
  reducesTo_S4096x2048_S4096_d1 : S4096x2048.ReducesTo [1] S4096
  concatenates_S4096x7_S4096x1_S4096x8_d1 : Shape.Concatenates [S4096x7, S4096x1] S4096x8 1
  slices_S4096x16384_S4096x15360_0_0 : S4096x16384.Slices ![0, 0] S4096x15360
  shapeCasts_S4096x15360_S4096x15x1024 : S4096x15360.ShapeCasts S4096x15x1024
  reducesTo_S4096x15x1024_S4096x15_d2 : S4096x15x1024.ReducesTo [2] S4096x15
  slices_S4096x16384_S4096x1024_0_15360 : S4096x16384.Slices ![0, 15360] S4096x1024
  reducesTo_S4096x1024_S4096_d1 : S4096x1024.ReducesTo [1] S4096
  concatenates_S4096x15_S4096x1_S4096x16_d1 : Shape.Concatenates [S4096x15, S4096x1] S4096x16 1
  concatenates_S4096x1_S4096x2_S4096x4_S4096x8_S4096x16_S4096x31_d1 : Shape.Concatenates [S4096x1, S4096x2, S4096x4, S4096x8, S4096x16] S4096x31 1

variable [Facts₀]

class Facts : Prop extends Facts₀ where

variable [Facts]
-- ==== Proof.BinMax.lean ====
/-
  Multi-resolution max pooling of the rows of a matrix, as ONE function of the matrix.

  A row of 16384 columns is cut, in turn, into 1, 2, 4, 8 and 16 bins of equal width (16384, 8192, 4096, 2048 and
  1024 columns), and each bin gives one output column holding the maximum of the row over that bin: 31 output
  columns, bins of one resolution side by side, resolutions in that order. `segMax f lo n` is the maximum of `f` over
  the `n` consecutive positions from `lo` (−∞ over no position), `rowAt x r` is row `r` of `x` by column number, and
  `pooled x` is the whole result. The maximum is taken on the extended reals, from −∞; it needs no finiteness.

  Also here, for any sizes: what a maximum over the last axis of a rank-2 or rank-3 array is at an index (the fold of
  `max` over that axis's coordinates), on the vector unit and on the host, and a column slice of a matrix read by rows.
-/
import Idealize.ShloMosaic.Lib.ValueIdx
import Idealize.ShloMosaic.Lib.Pipeline.Value
import Idealize.ShloMosaic.PureOps.Ideal.Laws

noncomputable section

namespace Cert.BinMax

open Idealize.ShloMosaic Idealize.ShloMosaic.ValueIdx

/-! ## Rows and segments -/

/-- Row `r` of an `R × N` matrix as a function of the column number; −∞ past the last column. -/
def rowAt {R N : Nat} (x : (⟨2, ![R, N]⟩ : Shape).Idx → EReal) (r : Fin R) (c : Nat) : EReal :=
  if h : c < N then x (ix2 r ⟨c, h⟩) else ⊥

theorem rowAt_of_lt {R N : Nat} (x : (⟨2, ![R, N]⟩ : Shape).Idx → EReal) (r : Fin R) (c : Nat) (h : c < N) :
    rowAt x r c = x (ix2 r ⟨c, h⟩) := dif_pos h

/-- An entry of the matrix is its row's value at its column. -/
theorem eq_rowAt {R N : Nat} (x : (⟨2, ![R, N]⟩ : Shape).Idx → EReal) (i : (⟨2, ![R, N]⟩ : Shape).Idx) (r : Fin R) (c : Nat)
    (h0 : (i 0).val = r.val) (h1 : (i 1).val = c) : x i = rowAt x r c := by
  have hc : c < N := h1 ▸ idx2_lt1 i
  rw [rowAt_of_lt x r c hc]
  congr 1
  funext a
  match a with
  | ⟨0, _⟩ => exact Fin.ext h0
  | ⟨1, _⟩ => exact Fin.ext h1

/-- The maximum of `f` over the `n` consecutive positions from `lo`; −∞ when there are none. -/
def segMax (f : Nat → EReal) (lo n : Nat) : EReal :=
  (Finset.univ : Finset (Fin n)).fold max ⊥ (fun k => f (lo + k.val))

/-- Two segments that agree position by position have the same maximum. -/
theorem segMax_congr (f g : Nat → EReal) (lo lo' n : Nat) (h : ∀ k, k < n → f (lo + k) = g (lo' + k)) :
    segMax f lo n = segMax g lo' n := by
  unfold segMax
  congr 1
  funext k
  exact h k.val k.isLt

/-- The f32 word of −∞ is the extended reals' bottom. -/
theorem ofBits_negInf : (FloatOps.ofBits (F := Ideal) .f32 0xFF800000#32 : EReal) = ⊥ := by
  show Ideal.ofBits .f32 0xFF800000#32 = ⊥
  simp [Ideal.ofBits, Ideal.ieee]

/-! ## The bins -/

/-- How many columns output column `c` pools: 1 bin of 16384, then 2 of 8192, 4 of 4096, 8 of 2048, 16 of 1024. -/
def binLen (c : Nat) : Nat :=
  if c < 1 then 16384 else if c < 3 then 8192 else if c < 7 then 4096 else if c < 15 then 2048 else 1024

/-- The first column of output column `c`'s bin. -/
def binLo (c : Nat) : Nat :=
  if c < 1 then 0 else if c < 3 then (c - 1) * 8192 else if c < 7 then (c - 3) * 4096
  else if c < 15 then (c - 7) * 2048 else (c - 15) * 1024

/-- The pooled matrix: entry `(r, c)` is the maximum of row `r` over output column `c`'s bin. -/
def pooled (x : (⟨2, ![4096, 16384]⟩ : Shape).Idx → EReal) : (⟨2, ![4096, 31]⟩ : Shape).Idx → EReal :=
  fun i => segMax (rowAt x (i 0)) (binLo (i 1).val) (binLen (i 1).val)

/-! ## A maximum over the last axis, at an index -/

/-- The index over row `r` with column `k` inserted. -/
theorem lift_row {R W : Nat} (h : (⟨2, ![R, W]⟩ : Shape).Reduces [1] ⟨1, ![R]⟩) (r : Fin R) (k : Fin W) :
    h.lift (ix1 r) k = ix2 r k := by
  funext a
  apply Fin.ext
  refine (h.lift_val (ix1 r) k a).trans ?_
  unfold Shape.Reduces.liftVal
  match a with
  | ⟨0, _⟩ => simp
  | ⟨1, _⟩ => simp

/-- The index over `(r, p)` with the last coordinate `k` inserted. -/
theorem lift_row3 {R P W : Nat} (h : (⟨3, ![R, P, W]⟩ : Shape).Reduces [2] ⟨2, ![R, P]⟩) (r : Fin R) (p : Fin P) (k : Fin W) :
    h.lift (ix2 r p) k = ix3 r p k := by
  funext a
  apply Fin.ext
  refine (h.lift_val (ix2 r p) k a).trans ?_
  unfold Shape.Reduces.liftVal
  match a with
  | ⟨0, _⟩ => simp
  | ⟨1, _⟩ => simp
  | ⟨2, _⟩ => simp

/-- The vector unit's row maximum from −∞, at row `r`: the maximum of the row over all its columns. -/
theorem rowMax_apply {R W : Nat} (src : FVec Ideal ⟨2, ![R, W]⟩ .f32) (h : (⟨2, ![R, W]⟩ : Shape).Reduces [1] ⟨1, ![R]⟩)
    (hφ : FKind.Formats .f32) (hacc : (0xFF800000#32 : BitVec 32) = FKind.maximumf.neutral .f32 hφ) (r : Fin R) :
    multiReduction .maximumf [1] ⟨1, ![R]⟩ src 0xFF800000#32 h hφ hacc (ix1 r) = segMax (rowAt src r) 0 W := by
  rw [Ideal.multiReduction_maximumf_single]
  show (Finset.univ : Finset (Fin W)).fold max (FloatOps.ofBits (F := Ideal) .f32 0xFF800000#32) (fun k => src (h.lift (ix1 r) k)) = _
  rw [ofBits_negInf]
  unfold segMax
  congr 1
  funext k
  rw [lift_row h r k]
  exact eq_rowAt src _ r _ rfl (by show k.val = 0 + k.val; omega)

/-- The host's maximum over the columns of a matrix, at row `r`: the fold of `max` from the initial value. -/
theorem hostRowMax_apply {R W : Nat} (y : (⟨2, ![R, W]⟩ : Shape).Idx → EReal) {u : Shape} (init : u.Idx → EReal)
    (h' : (⟨2, ![R, W]⟩ : Shape).ReducesTo [1] ⟨1, ![R]⟩) (h : (⟨2, ![R, W]⟩ : Shape).Reduces [1] ⟨1, ![R]⟩) (hu : 0 < u.numel)
    (r : Fin R) :
    Host.reduce (FloatOps.maximumf (F := Ideal) (φ := .f32)) y init h' hu (ix1 r)
      = (Finset.univ : Finset (Fin W)).fold max (init (Shape.Idx.first hu)) (fun k => y (ix2 r k)) := by
  rw [Host.reduce_eq_fold_single _ y init h' h hu (ix1 r)]
  show (Finset.univ : Finset (Fin W)).fold max (init (Shape.Idx.first hu)) (fun k => y (h.lift (ix1 r) k)) = _
  congr 1
  funext k
  rw [lift_row h r k]

/-- The host's maximum over the last axis of a rank-3 array, at `(r, p)`. -/
theorem hostRowMax3_apply {R P W : Nat} (y : (⟨3, ![R, P, W]⟩ : Shape).Idx → EReal) {u : Shape} (init : u.Idx → EReal)
    (h' : (⟨3, ![R, P, W]⟩ : Shape).ReducesTo [2] ⟨2, ![R, P]⟩) (h : (⟨3, ![R, P, W]⟩ : Shape).Reduces [2] ⟨2, ![R, P]⟩)
    (hu : 0 < u.numel) (r : Fin R) (p : Fin P) :
    Host.reduce (FloatOps.maximumf (F := Ideal) (φ := .f32)) y init h' hu (ix2 r p)
      = (Finset.univ : Finset (Fin W)).fold max (init (Shape.Idx.first hu)) (fun k => y (ix3 r p k)) := by
  rw [Host.reduce_eq_fold_single _ y init h' h hu (ix2 r p)]
  show (Finset.univ : Finset (Fin W)).fold max (init (Shape.Idx.first hu)) (fun k => y (h.lift (ix2 r p) k)) = _
  congr 1
  funext k
  rw [lift_row3 h r p k]

/-! ## A column slice, by rows -/

/-- Row `r` of the columns `lo, lo + 1, …` of a matrix is row `r` of the matrix, shifted by `lo`. -/
theorem rowAt_slice {R N W : Nat} (lo : Nat) (x : (⟨2, ![R, N]⟩ : Shape).Idx → EReal)
    (hs : (⟨2, ![R, N]⟩ : Shape).Slices ![0, lo] ⟨2, ![R, W]⟩) (hN : lo + W ≤ N) (r : Fin R) (c : Nat) (hc : c < W) :
    rowAt (extractStridedSlice ⟨2, ![R, W]⟩ ![0, lo] x hs) r c = rowAt x r (lo + c) := by
  rw [rowAt_of_lt _ r c hc, rowAt_of_lt x r (lo + c) (by omega)]
  exact extractStridedSlice_apply ![0, lo] x hs _ _ (fun a => match a with
    | ⟨0, _⟩ => by show r.val = 0 + r.val; omega
    | ⟨1, _⟩ => by show lo + c = lo + c; rfl)

end Cert.BinMax

end
-- ==== Proof.KernelPool.lean ====
/-
  The kernel's side. At a grid point the body loads a block of 256 whole rows and stores, in each of the 31 columns of
  the output block, the maximum of each row over one column range of the block: column 0 over all 16384 columns, then
  the two halves, the four quarters, the eight eighths and the sixteen sixteenths, left to right. So entry `(r, j)` of
  the stored block is the maximum of row `r` of the loaded block over output column `j`'s bin (`block_apply`).
  Grid point `t` loads rows `256 t … 256 t + 255` of the input and writes the same rows of the output, so what it
  writes back is those rows of the pooled matrix (`flushed_eq`); the 16 points' row bands tile the 4096 rows, so the
  output array ends as the pooled matrix (`final`), and the run is restated with that result (`run`).
-/
import proofs.«113391_j69295002353911_1_alg».proof.Proof.KernelValueP
import proofs.«113391_j69295002353911_1_alg».proof.Proof.BinMax

noncomputable section

namespace Cert.KernelIdeal.Pool

open Cert.KernelIdeal Cert.KernelIdeal.Gen Cert.KernelIdeal.ValueP Cert.BinMax
open Idealize.ShloMosaic Idealize.ShloMosaic.TcCoe Idealize.ShloMosaic.ValueIdx Idealize.SL.Sem
open Idealize.ShloMosaic.Pipeline (Dat)

/-! ## One column of the stored block -/

/-- A column of the stored block that pools the `W` block columns from `lo`: the row maximum of that column slice,
    viewed as a 256 × 1 column, holds at row `r` the maximum of row `r` of the block over those columns. -/
theorem col_apply (W lo : Nat) (P0 : FVec Ideal S256x16384 .f32)
    (hs : S256x16384.Slices ![0, lo] ⟨2, ![256, W]⟩) (hN : lo + W ≤ 16384)
    (hr : (⟨2, ![256, W]⟩ : Shape).Reduces [1] S256) (hφ : FKind.Formats .f32)
    (hacc : (0xFF800000#32 : BitVec 32) = FKind.maximumf.neutral .f32 hφ) (hc : S256.ShapeCasts S256x1) (r : Fin 256) :
    shapeCast S256x1 (multiReduction .maximumf [1] S256 (extractStridedSlice ⟨2, ![256, W]⟩ ![0, lo] P0 hs) 0xFF800000#32 hr hφ hacc) hc
        (ix2 r (0 : Fin 1))
      = segMax (rowAt P0 r) lo W := by
  refine (shapeCast_apply _ hc (ix2 r (0 : Fin 1)) (ix1 r) ?_).trans ?_
  · rw [Shape.rowMajor_val_one, Shape.rowMajor_val_two]
    show r.val = r.val * 1 + 0
    omega
  · rw [rowMax_apply]
    refine segMax_congr _ _ 0 lo W fun k hk => ?_
    rw [rowAt_slice lo P0 hs hN r (0 + k) (by omega)]
    congr 1
    omega

/-- The first column pools the whole row. -/
theorem col0_apply (P0 : FVec Ideal S256x16384 .f32) (hr : S256x16384.Reduces [1] S256) (hφ : FKind.Formats .f32)
    (hacc : (0xFF800000#32 : BitVec 32) = FKind.maximumf.neutral .f32 hφ) (hc : S256.ShapeCasts S256x1) (r : Fin 256) :
    shapeCast S256x1 (multiReduction .maximumf [1] S256 P0 0xFF800000#32 hr hφ hacc) hc (ix2 r (0 : Fin 1))
      = segMax (rowAt P0 r) 0 16384 := by
  refine (shapeCast_apply _ hc (ix2 r (0 : Fin 1)) (ix1 r) ?_).trans ?_
  · rw [Shape.rowMajor_val_one, Shape.rowMajor_val_two]
    show r.val = r.val * 1 + 0
    omega
  · exact rowMax_apply P0 hr hφ hacc r

/-! ## The stored block -/

/-- Entry `(r, j)` of the stored block is operand `j` of the body's concatenation, at row `r`. -/
theorem block_eq_cat (P0 : Vec Ideal S256x16384 .f32) (r : Fin 256) (j : Fin 31) :
    E1 (F := Ideal) P0 (ix2 r j) = Cat1_0 (F := Ideal) P0 j (ix2 r (0 : Fin 1)) := by
  show Cat1_0 (F := Ideal) P0 (csel1_0 (ix2 r j)) (ix1_0 (ix2 r j)) = _
  have e1 : csel1_0 (ix2 r j) = j := Fin.ext rfl
  have e2 : ix1_0 (ix2 r j) = ix2 r (0 : Fin 1) := by
    funext a
    match a with
    | ⟨0, _⟩ => rfl
    | ⟨1, _⟩ => rfl
  rw [e1, e2]

set_option maxHeartbeats 1000000 in
/-- Entry `(r, j)` of the stored block: the maximum of row `r` of the loaded block over output column `j`'s bin. -/
theorem block_apply (P0 : Vec Ideal S256x16384 .f32) (r : Fin 256) (j : Fin 31) :
    E1 (F := Ideal) P0 (ix2 r j) = segMax (rowAt P0 r) (binLo j.val) (binLen j.val) := by
  rw [block_eq_cat]
  match j with
  | ⟨0, _⟩ => dsimp only [Cat1_0]; exact col0_apply P0 _ _ _ _ r
  | ⟨1, _⟩ => dsimp only [Cat1_0]; exact col_apply 8192 0 P0 _ (by omega) _ _ _ _ r
  | ⟨2, _⟩ => dsimp only [Cat1_0]; exact col_apply 8192 8192 P0 _ (by omega) _ _ _ _ r
  | ⟨3, _⟩ => dsimp only [Cat1_0]; exact col_apply 4096 0 P0 _ (by omega) _ _ _ _ r
  | ⟨4, _⟩ => dsimp only [Cat1_0]; exact col_apply 4096 4096 P0 _ (by omega) _ _ _ _ r
  | ⟨5, _⟩ => dsimp only [Cat1_0]; exact col_apply 4096 8192 P0 _ (by omega) _ _ _ _ r
  | ⟨6, _⟩ => dsimp only [Cat1_0]; exact col_apply 4096 12288 P0 _ (by omega) _ _ _ _ r
  | ⟨7, _⟩ => dsimp only [Cat1_0]; exact col_apply 2048 0 P0 _ (by omega) _ _ _ _ r
  | ⟨8, _⟩ => dsimp only [Cat1_0]; exact col_apply 2048 2048 P0 _ (by omega) _ _ _ _ r
  | ⟨9, _⟩ => dsimp only [Cat1_0]; exact col_apply 2048 4096 P0 _ (by omega) _ _ _ _ r
  | ⟨10, _⟩ => dsimp only [Cat1_0]; exact col_apply 2048 6144 P0 _ (by omega) _ _ _ _ r
  | ⟨11, _⟩ => dsimp only [Cat1_0]; exact col_apply 2048 8192 P0 _ (by omega) _ _ _ _ r
  | ⟨12, _⟩ => dsimp only [Cat1_0]; exact col_apply 2048 10240 P0 _ (by omega) _ _ _ _ r
  | ⟨13, _⟩ => dsimp only [Cat1_0]; exact col_apply 2048 12288 P0 _ (by omega) _ _ _ _ r
  | ⟨14, _⟩ => dsimp only [Cat1_0]; exact col_apply 2048 14336 P0 _ (by omega) _ _ _ _ r
  | ⟨15, _⟩ => dsimp only [Cat1_0]; exact col_apply 1024 0 P0 _ (by omega) _ _ _ _ r
  | ⟨16, _⟩ => dsimp only [Cat1_0]; exact col_apply 1024 1024 P0 _ (by omega) _ _ _ _ r
  | ⟨17, _⟩ => dsimp only [Cat1_0]; exact col_apply 1024 2048 P0 _ (by omega) _ _ _ _ r
  | ⟨18, _⟩ => dsimp only [Cat1_0]; exact col_apply 1024 3072 P0 _ (by omega) _ _ _ _ r
  | ⟨19, _⟩ => dsimp only [Cat1_0]; exact col_apply 1024 4096 P0 _ (by omega) _ _ _ _ r
  | ⟨20, _⟩ => dsimp only [Cat1_0]; exact col_apply 1024 5120 P0 _ (by omega) _ _ _ _ r
  | ⟨21, _⟩ => dsimp only [Cat1_0]; exact col_apply 1024 6144 P0 _ (by omega) _ _ _ _ r
  | ⟨22, _⟩ => dsimp only [Cat1_0]; exact col_apply 1024 7168 P0 _ (by omega) _ _ _ _ r
  | ⟨23, _⟩ => dsimp only [Cat1_0]; exact col_apply 1024 8192 P0 _ (by omega) _ _ _ _ r
  | ⟨24, _⟩ => dsimp only [Cat1_0]; exact col_apply 1024 9216 P0 _ (by omega) _ _ _ _ r
  | ⟨25, _⟩ => dsimp only [Cat1_0]; exact col_apply 1024 10240 P0 _ (by omega) _ _ _ _ r
  | ⟨26, _⟩ => dsimp only [Cat1_0]; exact col_apply 1024 11264 P0 _ (by omega) _ _ _ _ r
  | ⟨27, _⟩ => dsimp only [Cat1_0]; exact col_apply 1024 12288 P0 _ (by omega) _ _ _ _ r
  | ⟨28, _⟩ => dsimp only [Cat1_0]; exact col_apply 1024 13312 P0 _ (by omega) _ _ _ _ r
  | ⟨29, _⟩ => dsimp only [Cat1_0]; exact col_apply 1024 14336 P0 _ (by omega) _ _ _ _ r
  | ⟨30, _⟩ => dsimp only [Cat1_0]; exact col_apply 1024 15360 P0 _ (by omega) _ _ _ _ r
  | ⟨n + 31, h⟩ => exact absurd h (by omega)

/-! ## From blocks to the array -/

variable (m : (ℓ : Loc nD τ sig) → Buf (Elt Ideal) ℓ) (ρ : Dev nD → PrngReg)

/-- The input matrix as the region finds it, -/
abbrev xarr (c : Dev nD) : Vec Ideal S4096x16384 .f32 := V m c main_arg0
/-- and the block of it that grid point `t` loads. -/
abbrev xblk (c : Dev nD) (t : Fin cfg0.N) : Vec Ideal S256x16384 .f32 := iblk m c 0 t

theorem hz : (![0, 0] : Fin 2 → Nat) = fun _ => 0 := funext fun a => by fin_cases a <;> rfl

/-- The printed index maps over the 16 grid points: point `t` takes row band `t` of both arrays, over all columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry `(r, k)` of the block point `t` loads is entry `(256 t + r, k)` of the input. -/
theorem xblk_apply (c : Dev nD) (t : Fin cfg0.N) (r : Fin 256) (k : Fin 16384) (hrow : t.val * 256 + r.val < 4096) :
    xblk m c t (ix2 r k) = xarr m c (ix2 ⟨t.val * 256 + r.val, hrow⟩ k) := by
  obtain ⟨e0, e1, -, -⟩ := idx_facts t
  show V m c main_arg0 (((cfg0.win 0).blk t).view.emb (ix2 r k)) = V m c main_arg0 _
  congr 1
  funext a
  apply Fin.ext
  match a with
  | ⟨0, _⟩ =>
    show win0_0.index t (0 : Fin 2) * 256 + 1 * r.val = t.val * 256 + r.val
    omega
  | ⟨1, _⟩ =>
    show win0_0.index t (1 : Fin 2) * 16384 + 1 * k.val = k.val
    omega

/-- So row `r` of that block is row `256 t + r` of the input. -/
theorem rowAt_xblk (c : Dev nD) (t : Fin cfg0.N) (r : Fin 256) (hrow : t.val * 256 + r.val < 4096) :
    rowAt (xblk m c t) r = rowAt (xarr m c) ⟨t.val * 256 + r.val, hrow⟩ := by
  funext k
  unfold rowAt
  by_cases hk : k < 16384
  · rw [dif_pos hk, dif_pos hk]
    exact xblk_apply m c t r ⟨k, hk⟩ hrow
  · rw [dif_neg hk, dif_neg hk]

/-- WHAT POINT `t` WRITES BACK is rows `256 t … 256 t + 255` of the pooled matrix of the input. -/
theorem flushed_eq (c : Dev nD) (t : Fin cfg0.N) :
    (dats m 0 c).flushed 1 t = ((cfg0.win 1).blk t).view.read (Elt Ideal) (pooled (xarr m c)) := by
  rw [flushed1]
  obtain ⟨-, -, e2, e3⟩ := idx_facts t
  have ht : t.val < 16 := t.isLt
  funext y
  have hy0 : (y 0).val < 256 := (y 0).isLt
  have hy1 : (y 1).val < 31 := (y 1).isLt
  have hrow : t.val * 256 + (y 0).val < 4096 := by omega
  show out0_1 (xblk m c t) y = pooled (xarr m c) (((cfg0.win 1).blk t).view.emb y)
  unfold out0_1
  rw [canon1_eq, View.ld_unit_zero (S := S256x16384) hz]
  have ey : y = ix2 (⟨(y 0).val, hy0⟩ : Fin 256) (⟨(y 1).val, hy1⟩ : Fin 31) := by
    funext a
    match a with
    | ⟨0, _⟩ => rfl
    | ⟨1, _⟩ => rfl
  have hemb : ((cfg0.win 1).blk t).view.emb y
      = ix2 (⟨t.val * 256 + (y 0).val, hrow⟩ : Fin 4096) (⟨(y 1).val, hy1⟩ : Fin 31) := by
    funext a
    apply Fin.ext
    match a with
    | ⟨0, _⟩ =>
      show win0_1.index t (0 : Fin 2) * 256 + 1 * (y 0).val = t.val * 256 + (y 0).val
      omega
    | ⟨1, _⟩ =>
      show win0_1.index t (1 : Fin 2) * 31 + 1 * (y 1).val = (y 1).val
      omega
  rw [hemb]
  refine (congrArg (E1 (F := Ideal) (xblk m c t)) ey).trans ?_
  rw [block_apply, rowAt_xblk m c t ⟨(y 0).val, hy0⟩ hrow]
  rfl

/-- An index of the output is in point `t`'s block iff each coordinate is in the block's range on its axis. -/
theorem mem_blk (t : Fin cfg0.N) (i : S4096x31.Idx) :
    i ∈ ((cfg0.win 1).blk t).view.set ↔ ∀ a : Fin 2, win0_1.index t a * S256x31.size a ≤ (i a).val
      ∧ (i a).val < win0_1.index t a * S256x31.size a + S256x31.size a := by
  show i ∈ ((View.whole main_v0).slice (win0_1.rect t)).set ↔ _
  rw [View.set_slice_whole, Rect.mem_set_unit]
  exact Iff.rfl

/-- Every entry of the output is in the block of the point that takes its row band: row `i` is in band `i / 256`. -/
theorem cover (i : S4096x31.Idx) :
    ∃ t : Fin cfg0.N, (cfg0.win 1).flush t = true ∧ i ∈ ((cfg0.win 1).blk t).view.set := by
  have hi0 : (i 0).val < 4096 := (i 0).isLt
  have hi1 : (i 1).val < 31 := (i 1).isLt
  have hb : (i 0).val / 256 < 16 := by omega
  obtain ⟨-, -, e2, e3⟩ := idx_facts ⟨(i 0).val / 256, hb⟩
  refine ⟨⟨(i 0).val / 256, hb⟩, flush0_1 _, ?_⟩
  rw [mem_blk]
  intro a
  match a with
  | ⟨0, _⟩ =>
    show win0_1.index ⟨(i 0).val / 256, hb⟩ (0 : Fin 2) * 256 ≤ (i 0).val
      ∧ (i 0).val < win0_1.index ⟨(i 0).val / 256, hb⟩ (0 : Fin 2) * 256 + 256
    have e : win0_1.index ⟨(i 0).val / 256, hb⟩ (0 : Fin 2) = (i 0).val / 256 := e2
    omega
  | ⟨1, _⟩ =>
    show win0_1.index ⟨(i 0).val / 256, hb⟩ (1 : Fin 2) * 31 ≤ (i 1).val
      ∧ (i 1).val < win0_1.index ⟨(i 0).val / 256, hb⟩ (1 : Fin 2) * 31 + 31
    omega

/-- THE OUTPUT ARRAY after the run is the pooled matrix of the input. -/
theorem final (c : Dev nD) : (dats m 0 c).arrAt 1 cfg0.N = pooled (xarr m c) :=
  (dats m 0 c).arrAt_eq_of_cover 1 (pooled (xarr m c)) (fun t _ => flushed_eq m c t) cover

/-- The kernel's run: the result array ends at the pooled matrix of the argument, the argument unchanged. -/
theorem run : θ_run defs (onTc (τ := τ) (main (F := Ideal))) ⟨m, fun _ => 0, ρ⟩ fun r => ∀ c : Dev nD,
      r.2.mem ((c : Thread nD τ).loc main_v0) = pooled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Pool

end
-- ==== Proof.LibNary5.lean ====
/-
  A `stablehlo.concatenate` of FIVE operands prints as `nary ![x, a, b, c, e] y f`. The general result lemma for `nary`
  hands the body the family `fun k => F ↑(![x, a, b, c, e] k)`, whose reference under the binder is no literal, so the
  contents of the five operand buffers cannot be rewritten further. Here is the result with each operand's contents at
  its OWN reference (`Fin.cons (F ↑x) (Fin.cons (F ↑a) …)`), for five references, and the same statement in the form
  a `simp` pass can use (the result reference un-indexed).
-/
import Idealize.ShloMosaic.Lib.StableHlo.Run

noncomputable section

namespace Idealize.ShloMosaic.StableHlo

variable {τ : Topo} {sig : RefSig} {Val : EltTy → Type}
variable {x a b c e y : Ref sig .tc}

/-- What a five-operand operation leaves at its result buffer: its body applied to the five operand buffers' contents,
    each read at its own literal reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same, keyed for `simp` on the operation alone. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- For a body that takes its five operands one by one, `fun u => g (u 0) (u 1) (u 2) (u 3) (u 4)` — what a printed
    five-operand concatenate is —: the result is `g` of the five operand buffers' contents, each at its own reference. -/
theorem nary5_result_app
    (g : x.ty.Contents Val → a.ty.Contents Val → b.ty.Contents Val → c.ty.Contents Val → e.ty.Contents Val → y.ty.Contents Val)
    (hxs hy) (F : Valuation τ sig Val) :
    (nary (τ := τ) ![x, a, b, c, e] y (fun u => g (u 0) (u 1) (u 2) (u 3) (u 4)) hxs hy).result F (Proc.devRef .tc y)
      = g (F (Proc.devRef .tc x)) (F (Proc.devRef .tc a)) (F (Proc.devRef .tc b)) (F (Proc.devRef .tc c)) (F (Proc.devRef .tc e)) := by
  rw [nary_result]
  rfl

end Idealize.ShloMosaic.StableHlo

end
-- ==== Proof.RefPool.lean ====
/-
  The reference's side. For each resolution `p` in 1, 2, 4, 8, 16 the reference takes the first `p - 1` bins of a row
  at once — the row's first `(p - 1) · w` columns viewed as `p - 1` rows of `w`, each maximised — and the last bin
  by itself — the maximum over the row's last `w` columns — and joins the two; then it joins the five resolutions.
  Entry `(r, q)` of resolution `p`'s piece is therefore the maximum of row `r` over the `w` columns from `q · w`,
  whether `q` is one of the first `p - 1` bins or the last one, and entry `(r, c)` of the joined result is the maximum
  of row `r` over output column `c`'s bin: the reference computes the pooled matrix (`ref_eq`).
-/
import proofs.«113391_j69295002353911_1_alg».proof.Proof.RefReadP
import proofs.«113391_j69295002353911_1_alg».proof.Proof.BinMax

noncomputable section

namespace Cert.ReferenceIdeal.Pool

open Cert.ReferenceIdeal Cert.ReferenceIdeal.Gen Cert.ReferenceIdeal.ReadP Cert.BinMax
open Idealize.ShloMosaic Idealize.ShloMosaic.TcCoe Idealize.ShloMosaic.ValueIdx Idealize.SL.Sem

/-- A fold of `max` from −∞ over `W` values that are a row's values at the `W` positions from `lo` is that
    segment's maximum. -/
theorem fold_eq_segMax (f : Nat → EReal) (lo W : Nat) (g : Fin W → EReal) (init : EReal) (hi : init = ⊥)
    (hg : ∀ k : Fin W, g k = f (lo + k.val)) :
    (Finset.univ : Finset (Fin W)).fold max init g = segMax f lo W := by
  subst hi
  unfold segMax
  congr 1
  funext k
  exact hg k

/-- The broadcast of a per-row vector to one column reads, at row `r`, the vector at `r`. -/
theorem idx_col (r : Fin 4096) : idx_main_v1 (ix2 r (0 : Fin 1)) = ix1 r := by
  funext a
  match a with
  | ⟨0, _⟩ => rfl

/-! ## One resolution at a time -/

/-- One bin (`p = 1`): the whole row. -/
theorem whole_row (x : S4096x16384.Idx → EReal) (r : Fin 4096) :
    val_main_v1 (F := Ideal) x (ix2 r (0 : Fin 1)) = segMax (rowAt x r) 0 16384 := by
  rw [val_main_v1_apply, idx_col]
  unfold val_main_v0
  refine (hostRowMax_apply x _ _ (by decide) h_S_ r).trans ?_
  refine fold_eq_segMax _ _ _ _ _ ofBits_negInf fun k => ?_
  exact eq_rowAt x _ r _ rfl (by show k.val = 0 + k.val; omega)

/-- Two bins, the first: columns `p · 8192 …` for `p < 1`. -/
theorem head2 (x : S4096x16384.Idx → EReal) (r : Fin 4096) (p : Fin 1) :
    val_main_v4 (F := Ideal) x (ix2 r p) = segMax (rowAt x r) (p.val * 8192) 8192 := by
  unfold val_main_v4
  refine (hostRowMax3_apply (val_main_v3 (F := Ideal) x) _ _ (by decide) h_S_ r p).trans ?_
  refine fold_eq_segMax _ _ _ _ _ ofBits_negInf fun k => ?_
  rw [val_main_v3_apply, val_main_v2_apply]
  have hp : p.val < 1 := p.isLt
  have hk : k.val < 8192 := k.isLt
  have hr : r.val < 4096 := r.isLt
  refine eq_rowAt x _ r _ ?_ ?_
  · show (((r.val * 1 + p.val) * 8192 + k.val) / 8192) = r.val
    omega
  · show (((r.val * 1 + p.val) * 8192 + k.val) % 8192) = p.val * 8192 + k.val
    omega

/-- Two bins, the last: columns `8192 …`. -/
theorem tail2 (x : S4096x16384.Idx → EReal) (r : Fin 4096) :
    val_main_v7 (F := Ideal) x (ix2 r (0 : Fin 1)) = segMax (rowAt x r) 8192 8192 := by
  rw [val_main_v7_apply]
  rw [show idx_main_v7 (ix2 r (0 : Fin 1)) = ix1 r from idx_col r]
  unfold val_main_v6
  refine (hostRowMax_apply (val_main_v5 (F := Ideal) x) _ _ (by decide) h_S_ r).trans ?_
  refine fold_eq_segMax _ _ _ _ _ ofBits_negInf fun k => ?_
  rw [val_main_v5_apply]
  exact eq_rowAt x _ r _ rfl rfl

/-- Four bins, the first three. -/
theorem head4 (x : S4096x16384.Idx → EReal) (r : Fin 4096) (p : Fin 3) :
    val_main_v11 (F := Ideal) x (ix2 r p) = segMax (rowAt x r) (p.val * 4096) 4096 := by
  unfold val_main_v11
  refine (hostRowMax3_apply (val_main_v10 (F := Ideal) x) _ _ (by decide) h_S_ r p).trans ?_
  refine fold_eq_segMax _ _ _ _ _ ofBits_negInf fun k => ?_
  rw [val_main_v10_apply, val_main_v9_apply]
  have hp : p.val < 3 := p.isLt
  have hk : k.val < 4096 := k.isLt
  have hr : r.val < 4096 := r.isLt
  refine eq_rowAt x _ r _ ?_ ?_
  · show (((r.val * 3 + p.val) * 4096 + k.val) / 12288) = r.val
    omega
  · show (((r.val * 3 + p.val) * 4096 + k.val) % 12288) = p.val * 4096 + k.val
    omega

/-- Four bins, the last. -/
theorem tail4 (x : S4096x16384.Idx → EReal) (r : Fin 4096) :
    val_main_v14 (F := Ideal) x (ix2 r (0 : Fin 1)) = segMax (rowAt x r) 12288 4096 := by
  rw [val_main_v14_apply]
  rw [show idx_main_v14 (ix2 r (0 : Fin 1)) = ix1 r from idx_col r]
  unfold val_main_v13
  refine (hostRowMax_apply (val_main_v12 (F := Ideal) x) _ _ (by decide) h_S_ r).trans ?_
  refine fold_eq_segMax _ _ _ _ _ ofBits_negInf fun k => ?_
  rw [val_main_v12_apply]
  exact eq_rowAt x _ r _ rfl rfl

/-- Eight bins, the first seven. -/
theorem head8 (x : S4096x16384.Idx → EReal) (r : Fin 4096) (p : Fin 7) :
    val_main_v18 (F := Ideal) x (ix2 r p) = segMax (rowAt x r) (p.val * 2048) 2048 := by
  unfold val_main_v18
  refine (hostRowMax3_apply (val_main_v17 (F := Ideal) x) _ _ (by decide) h_S_ r p).trans ?_
  refine fold_eq_segMax _ _ _ _ _ ofBits_negInf fun k => ?_
  rw [val_main_v17_apply, val_main_v16_apply]
  have hp : p.val < 7 := p.isLt
  have hk : k.val < 2048 := k.isLt
  have hr : r.val < 4096 := r.isLt
  refine eq_rowAt x _ r _ ?_ ?_
  · show (((r.val * 7 + p.val) * 2048 + k.val) / 14336) = r.val
    omega
  · show (((r.val * 7 + p.val) * 2048 + k.val) % 14336) = p.val * 2048 + k.val
    omega

/-- Eight bins, the last. -/
theorem tail8 (x : S4096x16384.Idx → EReal) (r : Fin 4096) :
    val_main_v21 (F := Ideal) x (ix2 r (0 : Fin 1)) = segMax (rowAt x r) 14336 2048 := by
  rw [val_main_v21_apply]
  rw [show idx_main_v21 (ix2 r (0 : Fin 1)) = ix1 r from idx_col r]
  unfold val_main_v20
  refine (hostRowMax_apply (val_main_v19 (F := Ideal) x) _ _ (by decide) h_S_ r).trans ?_
  refine fold_eq_segMax _ _ _ _ _ ofBits_negInf fun k => ?_
  rw [val_main_v19_apply]
  exact eq_rowAt x _ r _ rfl rfl

/-- Sixteen bins, the first fifteen. -/
theorem head16 (x : S4096x16384.Idx → EReal) (r : Fin 4096) (p : Fin 15) :
    val_main_v25 (F := Ideal) x (ix2 r p) = segMax (rowAt x r) (p.val * 1024) 1024 := by
  unfold val_main_v25
  refine (hostRowMax3_apply (val_main_v24 (F := Ideal) x) _ _ (by decide) h_S_ r p).trans ?_
  refine fold_eq_segMax _ _ _ _ _ ofBits_negInf fun k => ?_
  rw [val_main_v24_apply, val_main_v23_apply]
  have hp : p.val < 15 := p.isLt
  have hk : k.val < 1024 := k.isLt
  have hr : r.val < 4096 := r.isLt
  refine eq_rowAt x _ r _ ?_ ?_
  · show (((r.val * 15 + p.val) * 1024 + k.val) / 15360) = r.val
    omega
  · show (((r.val * 15 + p.val) * 1024 + k.val) % 15360) = p.val * 1024 + k.val
    omega

/-- Sixteen bins, the last. -/
theorem tail16 (x : S4096x16384.Idx → EReal) (r : Fin 4096) :
    val_main_v28 (F := Ideal) x (ix2 r (0 : Fin 1)) = segMax (rowAt x r) 15360 1024 := by
  rw [val_main_v28_apply]
  rw [show idx_main_v28 (ix2 r (0 : Fin 1)) = ix1 r from idx_col r]
  unfold val_main_v27
  refine (hostRowMax_apply (val_main_v26 (F := Ideal) x) _ _ (by decide) h_S_ r).trans ?_
  refine fold_eq_segMax _ _ _ _ _ ofBits_negInf fun k => ?_
  rw [val_main_v26_apply]
  exact eq_rowAt x _ r _ rfl rfl

/-! ## Each resolution's two pieces joined -/

/-- Two bins: entry `(r, q)` is the maximum of row `r` over the 8192 columns from `q · 8192`. -/
theorem pair2 (x : S4096x16384.Idx → EReal) (r : Fin 4096) (q : Fin 2) :
    val_main_v8 (F := Ideal) x (ix2 r q) = segMax (rowAt x r) (q.val * 8192) 8192 := by
  have hq : q.val < 2 := q.isLt
  unfold val_main_v8
  by_cases h : q.val < 1
  · refine (concatenate_pair_apply_left (s₁ := S4096x1) (s₂ := S4096x1) (1 : Fin 2) (val_main_v4 (F := Ideal) x) (val_main_v7 (F := Ideal) x) concatenates_S4096x1_S4096x1_S4096x2_d1
      (ix2 r q) rfl (ix2 r (⟨q.val, h⟩ : Fin 1)) (fun b => ?_)).trans ?_
    · match b with
      | ⟨0, _⟩ => rfl
      | ⟨1, _⟩ => rfl
    · exact head2 x r ⟨q.val, h⟩
  · refine (concatenate_pair_apply_right (s₁ := S4096x1) (s₂ := S4096x1) (1 : Fin 2) (val_main_v4 (F := Ideal) x) (val_main_v7 (F := Ideal) x) concatenates_S4096x1_S4096x1_S4096x2_d1
      (ix2 r q) rfl rfl (ix2 r (0 : Fin 1)) (fun b hb => ?_) ?_).trans ?_
    · match b with
      | ⟨0, _⟩ => rfl
      | ⟨1, _⟩ => exact absurd rfl hb
    · show 0 + 1 = q.val
      omega
    · rw [tail2]
      congr 1
      omega

/-- Four bins: entry `(r, q)` is the maximum of row `r` over the 4096 columns from `q · 4096`. -/
theorem pair4 (x : S4096x16384.Idx → EReal) (r : Fin 4096) (q : Fin 4) :
    val_main_v15 (F := Ideal) x (ix2 r q) = segMax (rowAt x r) (q.val * 4096) 4096 := by
  have hq : q.val < 4 := q.isLt
  unfold val_main_v15
  by_cases h : q.val < 3
  · refine (concatenate_pair_apply_left (s₁ := S4096x3) (s₂ := S4096x1) (1 : Fin 2) (val_main_v11 (F := Ideal) x) (val_main_v14 (F := Ideal) x) concatenates_S4096x3_S4096x1_S4096x4_d1
      (ix2 r q) rfl (ix2 r (⟨q.val, h⟩ : Fin 3)) (fun b => ?_)).trans ?_
    · match b with
      | ⟨0, _⟩ => rfl
      | ⟨1, _⟩ => rfl
    · exact head4 x r ⟨q.val, h⟩
  · refine (concatenate_pair_apply_right (s₁ := S4096x3) (s₂ := S4096x1) (1 : Fin 2) (val_main_v11 (F := Ideal) x) (val_main_v14 (F := Ideal) x) concatenates_S4096x3_S4096x1_S4096x4_d1
      (ix2 r q) rfl rfl (ix2 r (0 : Fin 1)) (fun b hb => ?_) ?_).trans ?_
    · match b with
      | ⟨0, _⟩ => rfl
      | ⟨1, _⟩ => exact absurd rfl hb
    · show 0 + 3 = q.val
      omega
    · rw [tail4]
      congr 1
      omega

/-- Eight bins: entry `(r, q)` is the maximum of row `r` over the 2048 columns from `q · 2048`. -/
theorem pair8 (x : S4096x16384.Idx → EReal) (r : Fin 4096) (q : Fin 8) :
    val_main_v22 (F := Ideal) x (ix2 r q) = segMax (rowAt x r) (q.val * 2048) 2048 := by
  have hq : q.val < 8 := q.isLt
  unfold val_main_v22
  by_cases h : q.val < 7
  · refine (concatenate_pair_apply_left (s₁ := S4096x7) (s₂ := S4096x1) (1 : Fin 2) (val_main_v18 (F := Ideal) x) (val_main_v21 (F := Ideal) x) concatenates_S4096x7_S4096x1_S4096x8_d1
      (ix2 r q) rfl (ix2 r (⟨q.val, h⟩ : Fin 7)) (fun b => ?_)).trans ?_
    · match b with
      | ⟨0, _⟩ => rfl
      | ⟨1, _⟩ => rfl
    · exact head8 x r ⟨q.val, h⟩
  · refine (concatenate_pair_apply_right (s₁ := S4096x7) (s₂ := S4096x1) (1 : Fin 2) (val_main_v18 (F := Ideal) x) (val_main_v21 (F := Ideal) x) concatenates_S4096x7_S4096x1_S4096x8_d1
      (ix2 r q) rfl rfl (ix2 r (0 : Fin 1)) (fun b hb => ?_) ?_).trans ?_
    · match b with
      | ⟨0, _⟩ => rfl
      | ⟨1, _⟩ => exact absurd rfl hb
    · show 0 + 7 = q.val
      omega
    · rw [tail8]
      congr 1
      omega

/-- Sixteen bins: entry `(r, q)` is the maximum of row `r` over the 1024 columns from `q · 1024`. -/
theorem pair16 (x : S4096x16384.Idx → EReal) (r : Fin 4096) (q : Fin 16) :
    val_main_v29 (F := Ideal) x (ix2 r q) = segMax (rowAt x r) (q.val * 1024) 1024 := by
  have hq : q.val < 16 := q.isLt
  unfold val_main_v29
  by_cases h : q.val < 15
  · refine (concatenate_pair_apply_left (s₁ := S4096x15) (s₂ := S4096x1) (1 : Fin 2) (val_main_v25 (F := Ideal) x) (val_main_v28 (F := Ideal) x) concatenates_S4096x15_S4096x1_S4096x16_d1
      (ix2 r q) rfl (ix2 r (⟨q.val, h⟩ : Fin 15)) (fun b => ?_)).trans ?_
    · match b with
      | ⟨0, _⟩ => rfl
      | ⟨1, _⟩ => rfl
    · exact head16 x r ⟨q.val, h⟩
  · refine (concatenate_pair_apply_right (s₁ := S4096x15) (s₂ := S4096x1) (1 : Fin 2) (val_main_v25 (F := Ideal) x) (val_main_v28 (F := Ideal) x) concatenates_S4096x15_S4096x1_S4096x16_d1
      (ix2 r q) rfl rfl (ix2 r (0 : Fin 1)) (fun b hb => ?_) ?_).trans ?_
    · match b with
      | ⟨0, _⟩ => rfl
      | ⟨1, _⟩ => exact absurd rfl hb
    · show 0 + 15 = q.val
      omega
    · rw [tail16]
      congr 1
      omega

/-! ## The five resolutions joined -/

/-- The five resolutions' pieces, coarsest first. -/
abbrev pieces (x : S4096x16384.Idx → EReal) : List ((s : Shape) × (s.Idx → EReal)) :=
  [⟨S4096x1, val_main_v1 (F := Ideal) x⟩, ⟨S4096x2, val_main_v8 (F := Ideal) x⟩, ⟨S4096x4, val_main_v15 (F := Ideal) x⟩,
    ⟨S4096x8, val_main_v22 (F := Ideal) x⟩, ⟨S4096x16, val_main_v29 (F := Ideal) x⟩]

/-- The reference's result is the pooled matrix: output column `c` falls in the piece of its resolution, at the bin
    number `c` less the columns of the coarser resolutions before it (0, 1, 3, 7, 15). -/
theorem ref_eq (x : S4096x16384.Idx → EReal) : val_main_v30 (F := Ideal) x = pooled x := by
  funext i
  obtain ⟨r, c, rfl⟩ : ∃ (r : Fin 4096) (c : Fin 31), i = ix2 r c := ⟨i 0, i 1, eq_ix2 i⟩
  have hc : c.val < 31 := c.isLt
  show val_main_v30 (F := Ideal) x (ix2 r c) = segMax (rowAt x r) (binLo c.val) (binLen c.val)
  unfold val_main_v30
  by_cases h1 : c.val < 1
  · have e1 : binLo c.val = 0 := by unfold binLo; rw [if_pos h1]
    have e2 : binLen c.val = 16384 := by unfold binLen; rw [if_pos h1]
    rw [e1, e2]
    refine (concatenate_apply_piece (t := S4096x31) (1 : Fin 2) (pieces x)
        concatenates_S4096x1_S4096x2_S4096x4_S4096x8_S4096x16_S4096x31_d1 (ix2 r c) 0 ?_ S4096x1 (val_main_v1 (F := Ideal) x) rfl rfl 0 rfl
      (ix2 r (0 : Fin 1)) (fun b hb => ?_) ?_).trans (whole_row x r)
    · simp
    · match b with
      | ⟨0, _⟩ => rfl
      | ⟨1, _⟩ => exact absurd rfl hb
    · show 0 + 0 = c.val
      omega
  · by_cases h3 : c.val < 3
    · have e1 : binLo c.val = (c.val - 1) * 8192 := by unfold binLo; rw [if_neg h1, if_pos h3]
      have e2 : binLen c.val = 8192 := by unfold binLen; rw [if_neg h1, if_pos h3]
      rw [e1, e2]
      refine (concatenate_apply_piece (t := S4096x31) (1 : Fin 2) (pieces x)
        concatenates_S4096x1_S4096x2_S4096x4_S4096x8_S4096x16_S4096x31_d1 (ix2 r c) 1 ?_ S4096x2 (val_main_v8 (F := Ideal) x) rfl rfl 1 rfl
        (ix2 r (⟨c.val - 1, by omega⟩ : Fin 2)) (fun b hb => ?_) ?_).trans (pair2 x r ⟨c.val - 1, by omega⟩)
      · simp
      · match b with
        | ⟨0, _⟩ => rfl
        | ⟨1, _⟩ => exact absurd rfl hb
      · show 1 + (c.val - 1) = c.val
        omega
    · by_cases h7 : c.val < 7
      · have e1 : binLo c.val = (c.val - 3) * 4096 := by unfold binLo; rw [if_neg h1, if_neg h3, if_pos h7]
        have e2 : binLen c.val = 4096 := by unfold binLen; rw [if_neg h1, if_neg h3, if_pos h7]
        rw [e1, e2]
        refine (concatenate_apply_piece (t := S4096x31) (1 : Fin 2) (pieces x)
        concatenates_S4096x1_S4096x2_S4096x4_S4096x8_S4096x16_S4096x31_d1 (ix2 r c) 2 ?_ S4096x4 (val_main_v15 (F := Ideal) x) rfl rfl 3 rfl
          (ix2 r (⟨c.val - 3, by omega⟩ : Fin 4)) (fun b hb => ?_) ?_).trans (pair4 x r ⟨c.val - 3, by omega⟩)
        · simp
        · match b with
          | ⟨0, _⟩ => rfl
          | ⟨1, _⟩ => exact absurd rfl hb
        · show 3 + (c.val - 3) = c.val
          omega
      · by_cases h15 : c.val < 15
        · have e1 : binLo c.val = (c.val - 7) * 2048 := by unfold binLo; rw [if_neg h1, if_neg h3, if_neg h7, if_pos h15]
          have e2 : binLen c.val = 2048 := by unfold binLen; rw [if_neg h1, if_neg h3, if_neg h7, if_pos h15]
          rw [e1, e2]
          refine (concatenate_apply_piece (t := S4096x31) (1 : Fin 2) (pieces x)
        concatenates_S4096x1_S4096x2_S4096x4_S4096x8_S4096x16_S4096x31_d1 (ix2 r c) 3 ?_ S4096x8 (val_main_v22 (F := Ideal) x) rfl rfl 7 rfl
            (ix2 r (⟨c.val - 7, by omega⟩ : Fin 8)) (fun b hb => ?_) ?_).trans (pair8 x r ⟨c.val - 7, by omega⟩)
          · simp
          · match b with
            | ⟨0, _⟩ => rfl
            | ⟨1, _⟩ => exact absurd rfl hb
          · show 7 + (c.val - 7) = c.val
            omega
        · have e1 : binLo c.val = (c.val - 15) * 1024 := by unfold binLo; rw [if_neg h1, if_neg h3, if_neg h7, if_neg h15]
          have e2 : binLen c.val = 1024 := by unfold binLen; rw [if_neg h1, if_neg h3, if_neg h7, if_neg h15]
          rw [e1, e2]
          refine (concatenate_apply_piece (t := S4096x31) (1 : Fin 2) (pieces x)
        concatenates_S4096x1_S4096x2_S4096x4_S4096x8_S4096x16_S4096x31_d1 (ix2 r c) 4 ?_ S4096x16 (val_main_v29 (F := Ideal) x) rfl rfl 15 rfl
            (ix2 r (⟨c.val - 15, by omega⟩ : Fin 16)) (fun b hb => ?_) ?_).trans (pair16 x r ⟨c.val - 15, by omega⟩)
          · simp
          · match b with
            | ⟨0, _⟩ => rfl
            | ⟨1, _⟩ => exact absurd rfl hb
          · show 15 + (c.val - 15) = c.val
            omega

end Cert.ReferenceIdeal.Pool

end
-- ==== Proof.lean ====
/-
  Multi-resolution max pooling of the rows of a 4096 × 16384 matrix into 31 columns, kernel against reference.

  Both programs compute, for every row and every output column, the maximum (on the extended reals, from −∞) of the
  row over that column's bin: one bin of 16384 columns, then two of 8192, four of 4096, eight of 2048 and sixteen of
  1024, side by side in that order (`Cert.BinMax.pooled`). The kernel takes 256 whole rows at a grid point and
  reduces each bin's column slice by itself, 31 slices a block, the 16 row bands tiling the matrix
  (`Cert.KernelIdeal.Pool.run`). The reference takes, per resolution, all bins but the last at once through a reshape
  of the row's leading columns and the last bin as a trailing slice, and joins the pieces
  (`Cert.ReferenceIdeal.Pool.ref_eq`). A maximum over a set does not depend on how the set is traversed, and the two
  programs cut every row into the same bins, so the results agree entry by entry; no finiteness is used.
  The idealization rewrote nothing, so `preserves` is `True`; the three frames are the programs' runs.
-/
import proofs.«113391_j69295002353911_1_alg».proof.Defs
import proofs.«113391_j69295002353911_1_alg».proof.Proof.Gen.Kernel
import proofs.«113391_j69295002353911_1_alg».proof.Proof.Gen.Kernel.Skeleton
import proofs.«113391_j69295002353911_1_alg».proof.Proof.Gen.Kernel.Launch
import proofs.«113391_j69295002353911_1_alg».proof.Proof.Gen.Kernel.Points
import proofs.«113391_j69295002353911_1_alg».proof.Proof.Gen.Kernel.Frame
import proofs.«113391_j69295002353911_1_alg».proof.Proof.Gen.KernelIdeal
import proofs.«113391_j69295002353911_1_alg».proof.Proof.Gen.KernelIdeal.Skeleton
import proofs.«113391_j69295002353911_1_alg».proof.Proof.Gen.KernelIdeal.Launch
import proofs.«113391_j69295002353911_1_alg».proof.Proof.Gen.KernelIdeal.Points
import proofs.«113391_j69295002353911_1_alg».proof.Proof.Gen.KernelIdeal.Frame
import proofs.«113391_j69295002353911_1_alg».proof.Proof.Gen.ReferenceIdeal
import proofs.«113391_j69295002353911_1_alg».proof.Proof.Gen.Pre_finite_inputs
import proofs.«113391_j69295002353911_1_alg».proof.Proof.KernelPool
import proofs.«113391_j69295002353911_1_alg».proof.Proof.RefRunP
import proofs.«113391_j69295002353911_1_alg».proof.Proof.RefReadP
import proofs.«113391_j69295002353911_1_alg».proof.Proof.RefPool
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the argument, both programs end with the pooled matrix of that argument. -/
theorem algebraic : Cert.algebraic_KernelIdeal_ReferenceIdeal := by
  intro m ρ m' ρ' _ hagree
  refine ⟨fun c => Cert.BinMax.pooled (m ((c.tc : Thread Cert.KernelIdeal.nD Cert.KernelIdeal.τ).loc Cert.KernelIdeal.main_arg0)),
    Cert.KernelIdeal.Pool.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v30_eq, Cert.ReferenceIdeal.Pool.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
